-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096 : Shape := ⟨2, ![16, 4096]⟩
abbrev S11008x4096 : Shape := ⟨2, ![11008, 4096]⟩
abbrev S11008x32 : Shape := ⟨2, ![11008, 32]⟩
abbrev S11008 : Shape := ⟨1, ![11008]⟩
abbrev S_ : Shape := ⟨0, ![]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel
  bcast_S_S11008x32 : S_.BroadcastsInDim S11008x32 (![] : Fin 0 → Fin S11008x32.rank)
  reducesTo_S11008x32_S_d0_1 : S11008x32.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S16x4096 .f32) (main_arg1 : IVec S11008x4096 32) (main_arg2 : FVec F S11008x32 .f32) (main_arg3 : FVec F S11008 .f32) : IVec S_ 1 :=
  let main_v0 : FVec F S16x4096 .f32 := Host.absf main_arg0
  let main_cst : FVec F S_ .f32 := constant S_ .f32 0x7F800000#32
  let main_v1 : FVec F S16x4096 .f32 := broadcastInDim S16x4096 ![] bcast_S_S16x4096 main_cst
  let main_v2 : IVec S16x4096 1 := cmpf .olt main_v0 main_v1
  let main_c : IVec S_ 1 := constantI S_ 1 1#1
  let main_v3 : IVec S_ 1 := (fun x v => Host.reduce IntOp.andi x v reducesTo_S16x4096_S_d0_1 h_S_) main_v2 main_c
  let main_v4 : FVec F S11008x32 .f32 := Host.absf main_arg2
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S16x4096 : Shape := ⟨2, ![16, 4096]⟩
abbrev S11008x4096 : Shape := ⟨2, ![11008, 4096]⟩
abbrev S11008x32 : Shape := ⟨2, ![11008, 32]⟩
abbrev S11008 : Shape := ⟨1, ![11008]⟩
abbrev S11008x1 : Shape := ⟨2, ![11008, 1]⟩
abbrev S16x11008 : Shape := ⟨2, ![16, 11008]⟩
abbrev S256x4096 : Shape := ⟨2, ![256, 4096]⟩
abbrev S256x32 : Shape := ⟨2, ![256, 32]⟩
abbrev S256x1 : Shape := ⟨2, ![256, 1]⟩
abbrev S16x256 : Shape := ⟨2, ![16, 256]⟩
abbrev S256x32x128 : Shape := ⟨3, ![256, 32, 128]⟩
abbrev S256x32x1 : Shape := ⟨3, ![256, 32, 1]⟩
abbrev S1x256 : Shape := ⟨2, ![1, 256]⟩

abbrev nBuf : Space → Nat
  | .hbm => 6
  | .vmem => 9
  | .smem => 0
  | _ => 0

abbrev bufTy : (tb : Table) → Fin (tcTables nBuf tb) → BufTy
  | .hbm, ⟨0, _⟩ => ⟨S16x4096, .f32⟩
  | .hbm, ⟨1, _⟩ => ⟨S11008x4096, .i32⟩
  | .hbm, ⟨2, _⟩ => ⟨S11008x32, .f32⟩
  | .hbm, ⟨3, _⟩ => ⟨S11008, .f32⟩
  | .hbm, ⟨4, _⟩ => ⟨S11008x1, .f32⟩
  | .hbm, ⟨5, _⟩ => ⟨S16x11008, .f32⟩
  | .local _ .vmem, ⟨0, _⟩ => ⟨S16x4096, .f32⟩
  | .local _ .vmem, ⟨1, _⟩ => ⟨S256x4096, .i32⟩
  | .local _ .vmem, ⟨2, _⟩ => ⟨S256x4096, .i32⟩
  | .local _ .vmem, ⟨3, _⟩ => ⟨S256x32, .f32⟩
  | .local _ .vmem, ⟨4, _⟩ => ⟨S256x32, .f32⟩
  | .local _ .vmem, ⟨5, _⟩ => ⟨S256x1, .f32⟩
  | .local _ .vmem, ⟨6, _⟩ => ⟨S256x1, .f32⟩
  | .local _ .vmem, ⟨7, _⟩ => ⟨S16x256, .f32⟩
  | .local _ .vmem, ⟨8, _⟩ => ⟨S16x256, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S11008_S11008x1 : S11008.ShapeCasts S11008x1
  inb_S256x4096_S256x4096_0_0 : ∀ a, (![0, 0] : Fin 2 → Nat) a + S256x4096.size a ≤ S256x4096.size a
  h_S256x4096 : 0 < S256x4096.numel
  shapeCasts_S256x4096_S256x32x128 : S256x4096.ShapeCasts S256x32x128
  inb_S256x32_S256x32_0_0 : ∀ a, (![0, 0] : Fin 2 → Nat) a + S256x32.size a ≤ S256x32.size a
  h_S256x32 : 0 < S256x32.numel
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  bitsLt_bf16_f32 : FTy.bits .bf16 < FTy.bits .f32
  inb_S16x4096_S16x4096_0_0 : ∀ a, (![0, 0] : Fin 2 → Nat) a + S16x4096.size a ≤ S16x4096.size a
  h_S16x4096 : 0 < S16x4096.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  shapeCasts_S256x1_S1x256 : S256x1.ShapeCasts S1x256
  broadcasts_S1x256_S16x256 : S1x256.Broadcasts S16x256
  inb_S16x256_S16x256_0_0 : ∀ a, (![0, 0] : Fin 2 → Nat) a + S16x256.size a ≤ S16x256.size a
  h_S16x256 : 0 < S16x256.numel
  dot_S16x4096_S256x4096_S16x256_1_1_0_0_n_n_wf : DotDims.WF S16x4096 S256x4096 S16x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x4096.size a ≤ S16x4096.size a
  hwx0_0 : ∀ i : grid0.Coords, EltTy.bits .f32 = 32 ∨ (Rect.block (s := S16x4096) S16x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S11008x32.size a
  hwx0_2 : ∀ i : grid0.Coords, EltTy.bits .f32 = 32 ∨ (Rect.block (s := S11008x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S11008x1.size a
  hwx0_3 : ∀ i : grid0.Coords, EltTy.bits .f32 = 32 ∨ (Rect.block (s := S11008x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x256.size a ≤ S16x11008.size a
  hwx0_4 : ∀ i : grid0.Coords, EltTy.bits .f32 = 32 ∨ (Rect.block (s := S16x11008) S16x256.size (cc0_transform_4 i) (hinb0_4 i)).WholeWords (EltTy.packing .f32)

variable [Facts₀]

def dot_S16x4096_S256x4096_S16x256_1_1_0_0_n_n : DotDims S16x4096 S256x4096 S16x256 where
  lhsContracting := [1]
  rhsContracting := [1]
  lhsNonContracting := [0]
  rhsNonContracting := [0]
  lhsBatch := []
  rhsBatch := []
  wf := dot_S16x4096_S256x4096_S16x256_1_1_0_0_n_n_wf

abbrev win0_0 : Pipeline.Window sig grid0 :=
  Pipeline.Window.ofSpec (Memref.whole main_arg0) S16x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S16x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4096 : Shape := ⟨2, ![16, 4096]⟩
abbrev S11008x4096 : Shape := ⟨2, ![11008, 4096]⟩
abbrev S11008x32 : Shape := ⟨2, ![11008, 32]⟩
abbrev S11008 : Shape := ⟨1, ![11008]⟩
abbrev S_ : Shape := ⟨0, ![]⟩
abbrev S11008x32x128 : Shape := ⟨3, ![11008, 32, 128]⟩
abbrev S11008x32x1 : Shape := ⟨3, ![11008, 32, 1]⟩
abbrev S4096x11008 : Shape := ⟨2, ![4096, 11008]⟩
abbrev S16x11008 : Shape := ⟨2, ![16, 11008]⟩
abbrev S1x11008 : Shape := ⟨2, ![1, 11008]⟩

abbrev nBuf : Space → Nat
  | .hbm => 18
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S11008x4096, .i32⟩
  | .hbm, ⟨2, _⟩ => ⟨S11008x32, .f32⟩
  | .hbm, ⟨3, _⟩ => ⟨S11008, .f32⟩
  | .hbm, ⟨4, _⟩ => ⟨S11008x4096, .f32⟩
  | .hbm, ⟨5, _⟩ => ⟨S_, .f32⟩
  | .hbm, ⟨6, _⟩ => ⟨S11008x4096, .f32⟩
  | .hbm, ⟨7, _⟩ => ⟨S11008x4096, .f32⟩
  | .hbm, ⟨8, _⟩ => ⟨S11008x32x128, .f32⟩
  | .hbm, ⟨9, _⟩ => ⟨S11008x32x1, .f32⟩
  | .hbm, ⟨10, _⟩ => ⟨S11008x32x128, .f32⟩
  | .hbm, ⟨11, _⟩ => ⟨S11008x32x128, .f32⟩
  | .hbm, ⟨12, _⟩ => ⟨S11008x4096, .f32⟩
  | .hbm, ⟨13, _⟩ => ⟨S4096x11008, .f32⟩
  | .hbm, ⟨14, _⟩ => ⟨S16x11008, .f32⟩
  | .hbm, ⟨15, _⟩ => ⟨S1x11008, .f32⟩
  | .hbm, ⟨16, _⟩ => ⟨S16x11008, .f32⟩
  | .hbm, ⟨17, _⟩ => ⟨S16x11008, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  bcast_S_S11008x4096 : S_.BroadcastsInDim S11008x4096 (![] : Fin 0 → Fin S11008x4096.rank)
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  transposes_S11008x4096_S4096x11008_1_0 : S11008x4096.Transposes [1, 0] S4096x11008
  bcast_S11008_S1x11008_1 : S11008.BroadcastsInDim S1x11008 (![1] : Fin 1 → Fin S1x11008.rank)
  bcast_S1x11008_S16x11008_0_1 : S1x11008.BroadcastsInDim S16x11008 (![0, 1] : Fin 2 → Fin S16x11008.rank)
  dot_S16x4096_S4096x11008_S16x11008_1_0_0_1_n_n_wf : DotDims.WF S16x4096 S4096x11008 S16x11008 [1] [0] [0] [1] [] []

variable [Facts₀]

def dot_S16x4096_S4096x11008_S16x11008_1_0_0_1_n_n : DotDims S16x4096 S4096x11008 S16x11008 where
  lhsContracting := [1]
  rhsContracting := [0]
  lhsNonContracting := [0]
  rhsNonContracting := [1]
  lhsBatch := []
  rhsBatch := []
  wf := dot_S16x4096_S4096x11008_S16x11008_1_0_0_1_n_n_wf

class Facts : Prop extends Facts₀ where

variable [Facts]
-- ==== Proof.Spec.lean ====
/-
  The function both programs compute.  A weight matrix is stored as 4-bit codes `q[n, k]` (held in 32-bit words) with one
  scale `s[n, g]` per row `n` and per group `g` of 128 consecutive columns.  The dequantized weight is

      w[n, k] = (q[n, k] - 8) * s[n, k / 128],

  the code read as a signed integer and centred at 8, and the layer's output is

      out[p, n] = (sum over k < 4096 of x[p, k] * w[n, k]) + bias[n].

  On the extended reals this is one expression: the sum is a finite sum in a commutative monoid, so no order of
  summation or blocking of the rows `n` changes it, and nothing here asks the inputs to be finite.
-/
import Idealize.ShloMosaic.PureOps.Ideal
import Idealize.ShloMosaic.Lib.ValueIdx

noncomputable section

namespace Cert.RtnGemm

open Idealize.ShloMosaic Idealize.ShloMosaic.ValueIdx

/-- The group of column `k`: groups are runs of 128 consecutive columns, 32 of them in a row of 4096. -/
def grp (k : Fin 4096) : Fin 32 := ⟨k.val / 128, by have := k.isLt; omega⟩

/-- One dequantized weight from a code and its scale: the signed code less 8, times the scale. The 8 is kept as the
    single-precision word both programs print for it; it is never evaluated. -/
def deq (code : BitVec 32) (scale : EReal) : EReal :=
  (((code.toInt : ℝ) : EReal) - Ideal.ofBits .f32 0x41000000#32) * scale

/-- The output at row `p` of the activations and row `n` of the weights. -/
def outAt (x : (⟨2, ![16, 4096]⟩ : Shape).Idx → EReal) (q : (⟨2, ![11008, 4096]⟩ : Shape).Idx → BitVec 32)
    (s : (⟨2, ![11008, 32]⟩ : Shape).Idx → EReal) (b : (⟨1, ![11008]⟩ : Shape).Idx → EReal)
    (p : Fin 16) (n : Fin 11008) : EReal :=
  (∑ k : Fin 4096, x (ix2 p k) * deq (q (ix2 n k)) (s (ix2 n (grp k)))) + b (ix1 n)

/-- The whole output array, index by index. -/
def out (x : (⟨2, ![16, 4096]⟩ : Shape).Idx → EReal) (q : (⟨2, ![11008, 4096]⟩ : Shape).Idx → BitVec 32)
    (s : (⟨2, ![11008, 32]⟩ : Shape).Idx → EReal) (b : (⟨1, ![11008]⟩ : Shape).Idx → EReal) :
    (⟨2, ![16, 11008]⟩ : Shape).Idx → EReal :=
  fun i => outAt x q s b (i 0) (i 1)

end Cert.RtnGemm

end
-- ==== Proof.Payload.lean ====
/-
  What one grid step of the kernel stores, read at an index.  A step holds a tile of 256 weight rows: their codes
  [256, 4096], their scales [256, 32] and their biases [256, 1], beside all 16 rows of activations [16, 4096].  It
  dequantizes the tile exactly as the specification says — codes less 8, each row viewed as 32 groups of 128, every group
  times its scale, the row flattened again —, multiplies the activations by the tile contracting the 4096 columns of
  both, into a zero accumulator, and adds the tile's biases laid along the rows.  Narrowing either operand to half
  precision first changes nothing on the extended reals.  So at row p of the activations and row r of the tile the
  stored value is

      (sum over k < 4096 of x[p, k] * ((q[r, k] - 8) * s[r, k / 128])) + bias[r, 0].
-/
import proofs.«148029_j72997264163016_1_alg».proof.Proof.Gen.KernelIdeal.Skeleton
import proofs.«148029_j72997264163016_1_alg».proof.Proof.Spec
import Idealize.ShloMosaic.Lib.Pipeline.Value
import Idealize.ShloMosaic.Lib.ValueIdx
import Idealize.ShloMosaic.PureOps.Ideal.Laws

noncomputable section

namespace Cert.RtnGemm.Payload

open Cert.KernelIdeal Cert.KernelIdeal.Gen Idealize.ShloMosaic Idealize.ShloMosaic.ValueIdx Cert.RtnGemm

/-- The position of column `k` inside its group. -/
def lane (k : Fin 4096) : Fin 128 := ⟨k.val % 128, Nat.mod_lt _ (by decide)⟩

/-- The dequantized tile at (r, k): column k of a row is lane k % 128 of group k / 128, and back. -/
theorem tile_apply (xq : Vec Ideal S256x4096 .i32) (xs : Vec Ideal S256x32 .f32)
    (h1 : S256x4096.ShapeCasts S256x32x128) (h2 : S256x32.ShapeCasts S256x32x1)
    (h3 : S256x32x1.Broadcasts S256x32x128) (h4 : S256x32x128.ShapeCasts S256x4096) (r : Fin 256) (k : Fin 4096) :
    shapeCast S256x4096 (mulf (shapeCast S256x32x128 (subf (sitofp .f32 xq) (broadcast S256x4096 (Scalar.ofBits (F := Ideal) .f32 0x41000000#32))) h1)
      (broadcastTo S256x32x128 (shapeCast S256x32x1 xs h2) h3)) h4 (ix2 r k)
    = deq (xq (ix2 r k)) (xs (ix2 r (grp k))) := by
  have hk : k.val < 4096 := k.isLt
  rw [shapeCast_apply _ h4 (ix2 r k) (ix3 r (grp k) (lane k)) (by
    rw [Shape.rowMajor_val_three, Shape.rowMajor_val_two]
    show (r.val * 32 + k.val / 128) * 128 + k.val % 128 = r.val * 4096 + k.val
    omega)]
  rw [mulf_apply]
  rw [shapeCast_apply _ h1 (ix3 r (grp k) (lane k)) (ix2 r k) (by
    rw [Shape.rowMajor_val_three, Shape.rowMajor_val_two]
    show r.val * 4096 + k.val = (r.val * 32 + k.val / 128) * 128 + k.val % 128
    omega)]
  rw [broadcastTo_apply _ h3 (ix3 r (grp k) (lane k)) (ix3 r (grp k) (0 : Fin 1)) (fun a => by
    match a with
    | ⟨0, _⟩ => show r.val = if (256 : Nat) = 1 then 0 else r.val; rw [if_neg (by decide)]
    | ⟨1, _⟩ => show (grp k).val = if (32 : Nat) = 1 then 0 else (grp k).val; rw [if_neg (by decide)]
    | ⟨2, _⟩ => show 0 = if (1 : Nat) = 1 then 0 else (lane k).val; rw [if_pos rfl])]
  rw [shapeCast_apply _ h2 (ix3 r (grp k) (0 : Fin 1)) (ix2 r (grp k)) (by
    rw [Shape.rowMajor_val_three, Shape.rowMajor_val_two]
    show r.val * 32 + (grp k).val = (r.val * 32 + (grp k).val) * 1 + 0
    omega)]
  rfl

/-- The biases laid along the rows: a column [256, 1] viewed as a row [1, 256] and repeated 16 times reads, at (p, r),
    the column's entry r. -/
theorem bias_row_apply (xb : Vec Ideal S256x1 .f32) (h1 : S256x1.ShapeCasts S256x1) (h2 : S256x1.ShapeCasts S1x256)
    (h3 : S1x256.Broadcasts S16x256) (p : Fin 16) (r : Fin 256) :
    broadcastTo S16x256 (shapeCast S1x256 (shapeCast S256x1 xb h1) h2) h3 (ix2 p r) = xb (ix2 r (0 : Fin 1)) := by
  rw [shapeCast_self]
  rw [broadcastTo_apply _ h3 (ix2 p r) (ix2 (0 : Fin 1) r) (fun a => by
    match a with
    | ⟨0, _⟩ => show 0 = if (1 : Nat) = 1 then 0 else p.val; rw [if_pos rfl]
    | ⟨1, _⟩ => show r.val = if (256 : Nat) = 1 then 0 else r.val; rw [if_neg (by decide)])]
  rw [shapeCast_apply _ h2 (ix2 (0 : Fin 1) r) (ix2 r (0 : Fin 1)) (by
    rw [Shape.rowMajor_val_two, Shape.rowMajor_val_two]
    show r.val * 1 + 0 = 0 * 256 + r.val
    omega)]

/-! The product contracts axis 1 of both operands; its output rows are the left operand's axis 0 and its output columns
    the right operand's axis 0. -/

theorem lhs_axis0 (i : S16x256.Idx) (c : dot_S16x4096_S256x4096_S16x256_1_1_0_0_n_n.contr.Idx) :
    (dot_S16x4096_S256x4096_S16x256_1_1_0_0_n_n.lhsIdx i c 0).val = (i 0).val := by
  unfold DotDims.lhsIdx
  rw [dif_neg (show ¬(0 : Fin S16x4096.rank) ∈ dot_S16x4096_S256x4096_S16x256_1_1_0_0_n_n.lhsBatch by decide),
    dif_pos (show (0 : Fin S16x4096.rank) ∈ dot_S16x4096_S256x4096_S16x256_1_1_0_0_n_n.lhsNonContracting by decide)]
  rfl

theorem lhs_axis1 (i : S16x256.Idx) (c : dot_S16x4096_S256x4096_S16x256_1_1_0_0_n_n.contr.Idx) :
    (dot_S16x4096_S256x4096_S16x256_1_1_0_0_n_n.lhsIdx i c 1).val = (c ⟨0, by decide⟩).val :=
  dot_S16x4096_S256x4096_S16x256_1_1_0_0_n_n.lhsIdx_val_of_single rfl i c

theorem rhs_axis0 (i : S16x256.Idx) (c : dot_S16x4096_S256x4096_S16x256_1_1_0_0_n_n.contr.Idx) :
    (dot_S16x4096_S256x4096_S16x256_1_1_0_0_n_n.rhsIdx i c 0).val = (i 1).val := by
  unfold DotDims.rhsIdx
  rw [dif_neg (show ¬(0 : Fin S256x4096.rank) ∈ dot_S16x4096_S256x4096_S16x256_1_1_0_0_n_n.rhsBatch by decide),
    dif_pos (show (0 : Fin S256x4096.rank) ∈ dot_S16x4096_S256x4096_S16x256_1_1_0_0_n_n.rhsNonContracting by decide)]
  rfl

theorem rhs_axis1 (i : S16x256.Idx) (c : dot_S16x4096_S256x4096_S16x256_1_1_0_0_n_n.contr.Idx) :
    (dot_S16x4096_S256x4096_S16x256_1_1_0_0_n_n.rhsIdx i c 1).val = (c ⟨0, by decide⟩).val :=
  dot_S16x4096_S256x4096_S16x256_1_1_0_0_n_n.rhsIdx_val_of_single rfl i c

/-- The product into a zero accumulator at (p, r): the sum over the 4096 columns of left (p, k) times right (r, k). -/
theorem product_apply (l : FVec Ideal S16x4096 .bf16) (w : FVec Ideal S256x4096 .bf16) (p : Fin 16) (r : Fin 256) :
    matmul dot_S16x4096_S256x4096_S16x256_1_1_0_0_n_n none l w (constant S16x256 .f32 0x00000000#32) (ix2 p r)
    = ∑ k : Fin 4096, l (ix2 p k) * w (ix2 r k) := by
  simp only [matmul]
  rw [Ideal.matmul_constant_zero_apply,
    ← Equiv.sum_comp (contrEquiv1 dot_S16x4096_S256x4096_S16x256_1_1_0_0_n_n 4096 rfl rfl).symm]
  refine Finset.sum_congr rfl fun k _ => ?_
  have hk := contrEquiv1_symm_val dot_S16x4096_S256x4096_S16x256_1_1_0_0_n_n 4096 rfl rfl k
  have el : dot_S16x4096_S256x4096_S16x256_1_1_0_0_n_n.lhsIdx (ix2 p r)
      ((contrEquiv1 dot_S16x4096_S256x4096_S16x256_1_1_0_0_n_n 4096 rfl rfl).symm k) = ix2 p k :=
    funext fun a => Fin.ext (by
      match a with
      | ⟨0, _⟩ => exact lhs_axis0 _ _
      | ⟨1, _⟩ => exact (lhs_axis1 _ _).trans hk)
  have er : dot_S16x4096_S256x4096_S16x256_1_1_0_0_n_n.rhsIdx (ix2 p r)
      ((contrEquiv1 dot_S16x4096_S256x4096_S16x256_1_1_0_0_n_n 4096 rfl rfl).symm k) = ix2 r k :=
    funext fun a => Fin.ext (by
      match a with
      | ⟨0, _⟩ => exact rhs_axis0 _ _
      | ⟨1, _⟩ => exact (rhs_axis1 _ _).trans hk)
  rw [el, er]

/-- The whole payload at (p, r). -/
theorem payload_apply (xq : Vec Ideal S256x4096 .i32) (xs : Vec Ideal S256x32 .f32) (xx : Vec Ideal S16x4096 .f32)
    (xb : Vec Ideal S256x1 .f32) (p : Fin 16) (r : Fin 256) :
    k0_pay1 (F := Ideal) xq xs xx xb (ix2 p r)
    = (∑ k : Fin 4096, xx (ix2 p k) * deq (xq (ix2 r k)) (xs (ix2 r (grp k)))) + xb (ix2 r (0 : Fin 1)) := by
  unfold k0_pay1
  rw [addf_apply, product_apply, bias_row_apply]
  refine congrArg (· + xb (ix2 r (0 : Fin 1))) (Finset.sum_congr rfl fun k _ => ?_)
  rw [truncf_apply, truncf_apply, tile_apply]

end Cert.RtnGemm.Payload

end
-- ==== Proof.Kernel.lean ====
/-
  From tiles to the whole array.  The grid has 43 steps; step t works on weight rows 256 t … 256 t + 255: it is handed
  that tile of the codes, of the scales and of the bias column, and all of the activations, and writes columns
  256 t … 256 t + 255 of the output.  Reading each handed block where the output's rectangle says turns the stored value
  of the step (the payload at (p, r)) into the specification at (p, 256 t + r); and since 43 * 256 = 11008, column n of
  the output belongs to step n / 256, so the steps' rectangles cover the array and it ends holding the specification.
  The bias reaches the kernel as a column [11008, 1] — the vector reshaped — whose entry (n, 0) is the vector's entry n.
-/
import proofs.«148029_j72997264163016_1_alg».proof.Proof.Gen.KernelIdeal.Value
import proofs.«148029_j72997264163016_1_alg».proof.Proof.Payload
import Idealize.ShloMosaic.Lib.Pipeline.Value
import Idealize.ShloMosaic.Lib.StableHlo.Run

noncomputable section

namespace Cert.RtnGemm.Kernel

open Cert.KernelIdeal Cert.KernelIdeal.Gen Idealize.ShloMosaic Idealize.ShloMosaic.TcCoe Idealize.SL.Sem
open Idealize.ShloMosaic.ValueIdx Cert.RtnGemm
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The specification of the argument arrays as launched. -/
abbrev result (c : Dev nD) : Buf (Elt Ideal) ((c : Thread nD τ).loc main_v1) :=
  out (m ((c : Thread nD τ).loc main_arg0)) (m ((c : Thread nD τ).loc main_arg1)) (m ((c : Thread nD τ).loc main_arg2))
    (m ((c : Thread nD τ).loc main_arg3))

/-- Row r of step t's tile is row 256 t + r of the weights. -/
def row (t : Fin cfg0.N) (r : Fin 256) : Fin 11008 :=
  ⟨t.val * 256 + r.val, by have := t.isLt; have hN : cfg0.N = 43 := N_0; have := r.isLt; omega⟩

/-- The block indices of the five windows at step t: the activations always block (0, 0); codes, scales and bias block
    (t, 0); the output block (0, t). Decided over the 43 steps. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val :=
  (by decide +kernel : ∀ t : Fin grid0.N, _)

/-- The activations' block is the whole array. -/
theorem x_block (c : Dev nD) (t : Fin cfg0.N) (p : Fin 16) (k : Fin 4096) :
    (iblk m c 0 t : Vec Ideal S16x4096 .f32) (ix2 p k)
    = (m ((c : Thread nD τ).loc main_arg0) : S16x4096.Idx → EReal) (ix2 p k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 16 + 1 * p.val = p.val; omega
  | ⟨1, _⟩ => show win0_0.index t (1 : Fin 2) * 4096 + 1 * k.val = k.val; omega

/-- The codes' block at (r, k) is the codes at (256 t + r, k). -/
theorem q_block (c : Dev nD) (t : Fin cfg0.N) (r : Fin 256) (k : Fin 4096) :
    (iblk m c 1 t : Vec Ideal S256x4096 .i32) (ix2 r k)
    = (m ((c : Thread nD τ).loc main_arg1) : S11008x4096.Idx → BitVec 32) (ix2 (row t r) k) := by
  obtain ⟨-, -, e0, e1, -⟩ := idx_facts t
  show V m c main_arg1 (((cfg0.win 1).blk t).view.emb (ix2 r k)) = _
  rw [V_main_arg1]
  refine congrArg _ (funext fun a => Fin.ext ?_)
  match a with
  | ⟨0, _⟩ => show win0_1.index t (0 : Fin 2) * 256 + 1 * r.val = t.val * 256 + r.val; omega
  | ⟨1, _⟩ => show win0_1.index t (1 : Fin 2) * 4096 + 1 * k.val = k.val; omega

/-- The scales' block at (r, g) is the scales at (256 t + r, g). -/
theorem s_block (c : Dev nD) (t : Fin cfg0.N) (r : Fin 256) (g : Fin 32) :
    (iblk m c 2 t : Vec Ideal S256x32 .f32) (ix2 r g)
    = (m ((c : Thread nD τ).loc main_arg2) : S11008x32.Idx → EReal) (ix2 (row t r) g) := by
  obtain ⟨-, -, -, -, e0, e1, -⟩ := idx_facts t
  show V m c main_arg2 (((cfg0.win 2).blk t).view.emb (ix2 r g)) = _
  rw [V_main_arg2]
  refine congrArg _ (funext fun a => Fin.ext ?_)
  match a with
  | ⟨0, _⟩ => show win0_2.index t (0 : Fin 2) * 256 + 1 * r.val = t.val * 256 + r.val; omega
  | ⟨1, _⟩ => show win0_2.index t (1 : Fin 2) * 32 + 1 * g.val = g.val; omega

/-- The bias column the region finds is the bias vector reshaped. -/
theorem bias_column (c : Dev nD) :
    (V m c main_v0 : S11008x1.Idx → EReal)
    = shapeCast S11008x1 (m ((c : Thread nD τ).loc main_arg3) : S11008.Idx → EReal) shapeCasts_S11008_S11008x1 := by
  dsimp only [V, hostOps0]; after_results; rfl

/-- The bias block at (r, 0) is the bias vector at 256 t + r. -/
theorem b_block (c : Dev nD) (t : Fin cfg0.N) (r : Fin 256) :
    (iblk m c 3 t : Vec Ideal S256x1 .f32) (ix2 r (0 : Fin 1))
    = (m ((c : Thread nD τ).loc main_arg3) : S11008.Idx → EReal) (ix1 (row t r)) := by
  obtain ⟨-, -, -, -, -, -, e0, e1, -⟩ := idx_facts t
  show (V m c main_v0 : S11008x1.Idx → EReal) (((cfg0.win 3).blk t).view.emb (ix2 r (0 : Fin 1))) = _
  rw [bias_column]
  refine shapeCast_apply _ _ _ (ix1 (row t r)) ?_
  rw [Shape.rowMajor_val_one, Shape.rowMajor_val_two]
  show t.val * 256 + r.val = (win0_3.index t (0 : Fin 2) * 256 + 1 * r.val) * 1 + (win0_3.index t (1 : Fin 2) * 1 + 1 * 0)
  omega

/-- What step t writes back is its rectangle of the specification. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz]
  simp only [View.ld_unit_zero (S := S256x4096) hz, View.ld_unit_zero (S := S256x32) hz,
    View.ld_unit_zero (S := S16x4096) hz, View.ld_unit_zero (S := S256x1) hz]
  obtain ⟨-, -, -, -, -, -, -, -, e0, e1⟩ := idx_facts t
  funext j
  obtain ⟨p, r, rfl⟩ : ∃ (p : Fin 16) (r : Fin 256), j = ix2 p r := ⟨j 0, j 1, eq_ix2 j⟩
  show k0_pay1 (F := Ideal) (iblk m c 1 t) (iblk m c 2 t) (iblk m c 0 t) (iblk m c 3 t) (ix2 p r)
    = result m c (((cfg0.win 4).blk t).view.emb (ix2 p r))
  have he : ((cfg0.win 4).blk t).view.emb (ix2 p r) = (ix2 p (row t r) : S16x11008.Idx) :=
    funext fun a => Fin.ext (by
      match a with
      | ⟨0, _⟩ => show win0_4.index t (0 : Fin 2) * 16 + 1 * p.val = p.val; omega
      | ⟨1, _⟩ => show win0_4.index t (1 : Fin 2) * 256 + 1 * r.val = t.val * 256 + r.val; omega)
  rw [he]
  refine (Payload.payload_apply (iblk m c 1 t) (iblk m c 2 t) (iblk m c 0 t) (iblk m c 3 t) p r).trans ?_
  show _ = outAt _ _ _ _ p (row t r)
  unfold outAt
  refine congrArg₂ (· + ·) (Finset.sum_congr rfl fun k _ => ?_) (b_block m c t r)
  rw [x_block m c t p k, q_block m c t r k, s_block m c t r (grp k)]

/-- An index of the output is in step t's rectangle iff each coordinate is in the rectangle's range on its axis. -/
theorem mem_blk (t : Fin cfg0.N) (i : S16x11008.Idx) :
    i ∈ ((cfg0.win 4).blk t).view.set ↔ ∀ a : Fin 2, win0_4.index t a * S16x256.size a ≤ (i a).val
      ∧ (i a).val < win0_4.index t a * S16x256.size a + S16x256.size a := by
  show i ∈ ((View.whole main_v1).slice (win0_4.rect t)).set ↔ _
  rw [View.set_slice_whole, Rect.mem_set_unit]
  exact Iff.rfl

/-- Column n of the output is written by step n / 256. -/
theorem cover (i : S16x11008.Idx) :
    ∃ t : Fin cfg0.N, (cfg0.win 4).flush t = true ∧ i ∈ ((cfg0.win 4).blk t).view.set := by
  have h0 : (i 0).val < 16 := (i 0).isLt
  have h1 : (i 1).val < 11008 := (i 1).isLt
  have hN : cfg0.N = 43 := N_0
  obtain ⟨t, ht⟩ : ∃ t : Fin cfg0.N, t.val = (i 1).val / 256 := ⟨⟨(i 1).val / 256, by rw [hN]; omega⟩, rfl⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 16 ≤ (i 0).val ∧ (i 0).val < win0_4.index t (0 : Fin 2) * 16 + 16
    omega
  | ⟨1, _⟩ =>
    show win0_4.index t (1 : Fin 2) * 256 ≤ (i 1).val ∧ (i 1).val < win0_4.index t (1 : Fin 2) * 256 + 256
    omega

/-- The output array after the run is the specification. -/
theorem final (c : Dev nD) : (dats m 0 c).arrAt 4 cfg0.N = result m c :=
  (dats m 0 c).arrAt_eq_of_cover 4 (result m c) (fun t _ => flushed_eq m c t) cover

/-- The kernel's run: the output at the specification of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.RtnGemm.Kernel

end
-- ==== Proof.Reference.lean ====
/-
  The reference, read index by index, is the specification.  It converts the codes, subtracts 8, views each row of 4096
  columns as 32 groups of 128, multiplies every group by its scale, flattens the row again, transposes, and contracts
  the activations' columns with the transposed weights' rows; the bias is added along the rows.  At output index (p, n)
  and contraction index k the weight operand is read at (k, n) of the transpose, that is (n, k) of the flattened
  product, that is (n, k / 128, k % 128) of the grouped product — whose code is again at (n, k) and whose scale is at
  (n, k / 128).  The three index computations are the only content; each is arithmetic on k < 4096.
-/
import proofs.«148029_j72997264163016_1_alg».proof.Proof.Gen.ReferenceIdeal.Read
import proofs.«148029_j72997264163016_1_alg».proof.Proof.Spec

noncomputable section

namespace Cert.RtnGemm.Reference

open Cert.ReferenceIdeal Cert.ReferenceIdeal.Read Idealize.ShloMosaic Idealize.ShloMosaic.ValueIdx Cert.RtnGemm

/-- The activations are read at (p, k). -/
theorem lhs_index (i : S16x11008.Idx) (k : Fin 4096) : lidx_main_v9 i k = ix2 (i 0) k :=
  funext fun a => Fin.ext (by match a with | ⟨0, _⟩ => rfl | ⟨1, _⟩ => rfl)

/-- Through the transpose, the flattening and the grouping, the code is read at (n, k). -/
theorem code_index (i : S16x11008.Idx) (k : Fin 4096) :
    idx_main_v3 (idx_main_v7 (idx_main_v8 (ridx_main_v9 i k))) = ix2 (i 1) k :=
  funext fun a => Fin.ext (by
    have hk : k.val < 4096 := k.isLt
    have hn : (i 1).val < 11008 := (i 1).isLt
    match a with
    | ⟨0, _⟩ =>
      show ((((i 1).val * 4096 + k.val) / 4096 * 32 + ((i 1).val * 4096 + k.val) / 128 % 32) * 128
        + ((i 1).val * 4096 + k.val) % 128) / 4096 = (i 1).val
      omega
    | ⟨1, _⟩ =>
      show ((((i 1).val * 4096 + k.val) / 4096 * 32 + ((i 1).val * 4096 + k.val) / 128 % 32) * 128
        + ((i 1).val * 4096 + k.val) % 128) % 4096 = k.val
      omega)

/-- The scale is read at (n, k / 128). -/
theorem scale_index (i : S16x11008.Idx) (k : Fin 4096) :
    idx_main_v4 (idx_main_v5 (idx_main_v7 (idx_main_v8 (ridx_main_v9 i k)))) = ix2 (i 1) (grp k) :=
  funext fun a => Fin.ext (by
    have hk : k.val < 4096 := k.isLt
    have hn : (i 1).val < 11008 := (i 1).isLt
    match a with
    | ⟨0, _⟩ =>
      show ((i 1).val * 4096 + k.val) / 4096 = (i 1).val
      omega
    | ⟨1, _⟩ =>
      show ((i 1).val * 4096 + k.val) / 128 % 32 = k.val / 128
      omega)

/-- The bias is read at n. -/
theorem bias_index (i : S16x11008.Idx) : idx_main_v10 (idx_main_v11 i) = ix1 (i 1) :=
  funext fun a => Fin.ext (by match a with | ⟨0, _⟩ => rfl)

/-- The reference's last stage is the specification. -/
theorem result_eq (x : (⟨S16x4096, .f32⟩ : BufTy).Contents (Elt Ideal)) (q : (⟨S11008x4096, .i32⟩ : BufTy).Contents (Elt Ideal))
    (s : (⟨S11008x32, .f32⟩ : BufTy).Contents (Elt Ideal)) (b : (⟨S11008, .f32⟩ : BufTy).Contents (Elt Ideal)) :
    val_main_v12 (F := Ideal) x q s b = out x q s b := by
  funext i
  rw [val_main_v12_apply, val_main_v9_apply, val_main_v11_apply, val_main_v10_apply, bias_index]
  show (∑ k : Fin 4096, x (lidx_main_v9 i k) * val_main_v8 (F := Ideal) q s (ridx_main_v9 i k)) + b (ix1 (i 1)) = _
  refine congrArg (· + b (ix1 (i 1))) (Finset.sum_congr rfl fun k _ => ?_)
  rw [val_main_v8_apply, val_main_v7_apply, val_main_v6_apply, val_main_v3_apply, val_main_v2_apply, val_main_v0_apply,
    val_main_v1_apply, val_main_cst_apply, val_main_v5_apply, val_main_v4_apply, lhs_index, code_index, scale_index]
  rfl

end Cert.RtnGemm.Reference

end
-- ==== Proof.lean ====
/-
  A linear layer whose weights are stored as 4-bit codes with one scale per row and per group of 128 columns:

      out[p, n] = (sum over k < 4096 of x[p, k] * ((q[n, k] - 8) * s[n, k / 128])) + bias[n],   p < 16, n < 11008.

  The kernel walks the 11008 weight rows in 43 tiles of 256.  On each tile it dequantizes the codes, narrows weights and
  activations to half precision, multiplies contracting the 4096 columns of both operands into a zero accumulator, adds
  the tile's biases along the rows and writes 256 columns of the output.  The reference dequantizes the whole matrix,
  transposes it, contracts the activations' columns with its rows and adds the bias.

  On the extended reals the two are the same function of the inputs.  A change of floating-point format is the identity
  there; a product into a zero accumulator and the host's contraction are both the plain sum over k of the operands'
  products; and the tiling only decides which step writes which column (n / 256), not what is written.  Both sums have
  the same terms in the same order of factors, x[p, k] times the dequantized weight, so no law of arithmetic beyond
  reading the layouts at an index is used, and the finiteness of the inputs is never opened.

  Proof/Spec.lean states the function; Proof/Reference.lean reads the reference's last stage as it; Proof/Payload.lean reads
  one step's stored value at an index; Proof/Kernel.lean puts the 43 rectangles together into the whole output array.
  The kernel's run, the reference's run and its stages read at an index are generated modules; the frames are the
  generated ones, the reference's being its run with the result dropped.  The idealized kernel is the kernel's own text
  read on the extended reals, so there is nothing to preserve.
-/
import proofs.«148029_j72997264163016_1_alg».proof.Defs
import proofs.«148029_j72997264163016_1_alg».proof.Proof.Gen.Kernel
import proofs.«148029_j72997264163016_1_alg».proof.Proof.Gen.Kernel.Skeleton
import proofs.«148029_j72997264163016_1_alg».proof.Proof.Gen.Kernel.Launch
import proofs.«148029_j72997264163016_1_alg».proof.Proof.Gen.Kernel.Points
import proofs.«148029_j72997264163016_1_alg».proof.Proof.Gen.Kernel.Frame
import proofs.«148029_j72997264163016_1_alg».proof.Proof.Gen.KernelIdeal
import proofs.«148029_j72997264163016_1_alg».proof.Proof.Gen.KernelIdeal.Skeleton
import proofs.«148029_j72997264163016_1_alg».proof.Proof.Gen.KernelIdeal.Launch
import proofs.«148029_j72997264163016_1_alg».proof.Proof.Gen.KernelIdeal.Points
import proofs.«148029_j72997264163016_1_alg».proof.Proof.Gen.KernelIdeal.Frame
import proofs.«148029_j72997264163016_1_alg».proof.Proof.Gen.ReferenceIdeal
import proofs.«148029_j72997264163016_1_alg».proof.Proof.Gen.KernelIdeal.Value
import proofs.«148029_j72997264163016_1_alg».proof.Proof.Gen.ReferenceIdeal.Run
import proofs.«148029_j72997264163016_1_alg».proof.Proof.Gen.ReferenceIdeal.Read
import proofs.«148029_j72997264163016_1_alg».proof.Proof.Gen.Pre_finite_inputs
import proofs.«148029_j72997264163016_1_alg».proof.Proof.Kernel
import proofs.«148029_j72997264163016_1_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the output at the specification of their arguments, and the arguments agree. -/
theorem algebraic : Cert.algebraic_KernelIdeal_ReferenceIdeal := by
  intro m ρ m' ρ' _ hagree
  refine ⟨fun c => Cert.RtnGemm.Kernel.result m c, Cert.RtnGemm.Kernel.run m ρ, ?_⟩
  refine (θ_run Cert.ReferenceIdeal.defs _ _).mono (fun _ h c => ⟨(h c).1.trans ?_, (h c).2⟩)
    (Cert.ReferenceIdeal.Value.run (F := Ideal) m' ρ')
  show _ = Cert.RtnGemm.Kernel.result m c
  rw [Cert.ReferenceIdeal.Read.val_main_v12_eq, Cert.RtnGemm.Reference.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
